-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x16 : Shape := ⟨2, ![1600000, 16]⟩
abbrev S32x128 : Shape := ⟨2, ![32, 128]⟩
abbrev S128 : Shape := ⟨1, ![128]⟩
abbrev S16x128 : Shape := ⟨2, ![16, 128]⟩
abbrev S128x128 : Shape := ⟨2, ![128, 128]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S16x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x32 .f32) (main_arg1 : IVec S2x1600000 32) (main_arg2 : FVec F S1600000x16 .f32) (main_arg3 : FVec F S32x128 .f32) (main_arg4 : FVec F S128 .f32) (main_arg5 : FVec F S16x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x32 : Shape := ⟨2, ![100000, 32]⟩
abbrev S2x1600000 : Shape := ⟨2, ![2, 1600000]⟩
abbrev S1600000x16 : Shape := ⟨2, ![1600000, 16]⟩
abbrev S32x128 : Shape := ⟨2, ![32, 128]⟩
abbrev S128 : Shape := ⟨1, ![128]⟩
abbrev S16x128 : Shape := ⟨2, ![16, 128]⟩
abbrev S128x128 : Shape := ⟨2, ![128, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S5000x32 : Shape := ⟨2, ![5000, 32]⟩
abbrev S5000x128 : Shape := ⟨2, ![5000, 128]⟩
abbrev S1700000x128 : Shape := ⟨2, ![1700000, 128]⟩

abbrev nBuf : Space → Nat
  | .hbm => 119
  | .vmem => 28
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x16, .f32⟩
  | .hbm, ⟨3, _⟩ => ⟨S32x128, .f32⟩
  | .hbm, ⟨4, _⟩ => ⟨S128, .f32⟩
  | .hbm, ⟨5, _⟩ => ⟨S16x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S1x128, .f32⟩
  | .hbm, ⟨36, _⟩ => ⟨S100000x128, .f32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000, .f32⟩
  | .hbm, ⟨100, _⟩ => ⟨S1700000, .f32⟩
  | .hbm, ⟨101, _⟩ => ⟨S1700000x1, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x128, .f32⟩
  | .hbm, ⟨111, _⟩ => ⟨S1700000x128, .f32⟩
  | .hbm, ⟨112, _⟩ => ⟨S1700000x128, .f32⟩
  | .hbm, ⟨113, _⟩ => ⟨S_, .f32⟩
  | .hbm, ⟨114, _⟩ => ⟨S100000x128, .f32⟩
  | .hbm, ⟨115, _⟩ => ⟨S1700000x1, .i32⟩
  | .hbm, ⟨116, _⟩ => ⟨S100000x128, .f32⟩
  | .hbm, ⟨117, _⟩ => ⟨S1x128, .f32⟩
  | .hbm, ⟨118, _⟩ => ⟨S100000x128, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S128 : S_.BroadcastsInDim S128 (![] : Fin 0 → Fin S128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  dot_S5000x32_S32x128_S5000x128_1_0_0_1_n_n_wf : DotDims.WF S5000x32 S32x128 S5000x128 [1] [0] [0] [1] [] []
  dot_S5000x128_S128x128_S5000x128_1_0_0_1_n_n_wf : DotDims.WF S5000x128 S128x128 S5000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v82) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x16 : Shape := ⟨2, ![1600000, 16]⟩
abbrev S32x128 : Shape := ⟨2, ![32, 128]⟩
abbrev S128 : Shape := ⟨1, ![128]⟩
abbrev S16x128 : Shape := ⟨2, ![16, 128]⟩
abbrev S128x128 : Shape := ⟨2, ![128, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1600000x128 : Shape := ⟨2, ![1600000, 128]⟩
abbrev S1700000x128 : Shape := ⟨2, ![1700000, 128]⟩

abbrev nBuf : Space → Nat
  | .hbm => 127
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x16, .f32⟩
  | .hbm, ⟨3, _⟩ => ⟨S32x128, .f32⟩
  | .hbm, ⟨4, _⟩ => ⟨S128, .f32⟩
  | .hbm, ⟨5, _⟩ => ⟨S16x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S1600000x128, .f32⟩
  | .hbm, ⟨40, _⟩ => ⟨S1x128, .f32⟩
  | .hbm, ⟨41, _⟩ => ⟨S1600000x128, .f32⟩
  | .hbm, ⟨42, _⟩ => ⟨S1600000x128, .f32⟩
  | .hbm, ⟨43, _⟩ => ⟨S100000x128, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000, .f32⟩
  | .hbm, ⟨62, _⟩ => ⟨S1700000, .f32⟩
  | .hbm, ⟨63, _⟩ => ⟨S1700000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S1700000x1, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x128, .f32⟩
  | .hbm, ⟨115, _⟩ => ⟨S1700000x128, .f32⟩
  | .hbm, ⟨116, _⟩ => ⟨S1700000x128, .f32⟩
  | .hbm, ⟨117, _⟩ => ⟨S_, .f32⟩
  | .hbm, ⟨118, _⟩ => ⟨S100000x128, .f32⟩
  | .hbm, ⟨119, _⟩ => ⟨S1700000x1, .i32⟩
  | .hbm, ⟨120, _⟩ => ⟨S100000x128, .f32⟩
  | .hbm, ⟨121, _⟩ => ⟨S1x128, .f32⟩
  | .hbm, ⟨122, _⟩ => ⟨S100000x128, .f32⟩
  | .hbm, ⟨123, _⟩ => ⟨S100000x128, .f32⟩
  | .hbm, ⟨124, _⟩ => ⟨S_, .f32⟩
  | .hbm, ⟨125, _⟩ => ⟨S100000x128, .f32⟩
  | .hbm, ⟨126, _⟩ => ⟨S100000x128, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_14 : Ref sig .tc := ⟨.hbm, 106, rfl⟩
abbrev main_v75 : Ref sig .tc := ⟨.hbm, 107, rfl⟩
abbrev main_v76 : Ref sig .tc := ⟨.hbm, 108, rfl⟩
abbrev main_c_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call2_cst : Ref sig .tc := ⟨.hbm, 124, rfl⟩
abbrev main_call2_v0 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S1600000x128_0_1 : S1x128.BroadcastsInDim S1600000x128 (![0, 1] : Fin 2 → Fin S1600000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  dot_S100000x32_S32x128_S100000x128_1_0_0_1_n_n_wf : DotDims.WF S100000x32 S32x128 S100000x128 [1] [0] [0] [1] [] []
  dot_S1600000x16_S16x128_S1600000x128_1_0_0_1_n_n_wf : DotDims.WF S1600000x16 S16x128 S1600000x128 [1] [0] [0] [1] [] []
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S1600000x16_S16x128_S1600000x128_1_0_0_1_n_n : DotDims S1600000x16 S16x128 S1600000x128 where
  lhsContracting := [1]
  rhsContracting := [0]
  lhsNonContracting := [0]
  rhsNonContracting := [1]
  lhsBatch := []
  rhsBatch := []
  wf := dot_S1600000x16_S16x128_S1600000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Fold.lean ====
/-
  The kernel program's buffers between its five pallas_calls. The generated frame names the contents of every buffer at each
  boundary of @main as a fold `Gen.W0 … Gen.W12` from the launch memory: a stretch of host operations applies them in
  order, a pallas_call rewrites its own arrays and nothing else. Read here, buffer by buffer, is what the proof of the
  value needs of that fold: an argument array is never written, so it still holds the launch contents wherever a call
  reads it; the edge tables and the degree normalisation, computed once before the first call, are still there when
  the two aggregation stretches read them; a reshaped bias row is the reshape of its argument; and each aggregation
  stretch (gather the source rows, scale, scatter-add on the target rows) applied to a projected feature matrix is the
  reference's own aggregation of the same matrix, operation for operation.
-/
import proofs.«132889_j1984274891289_1_alg».proof.Proof.Gen.KernelIdeal.Frame
import proofs.«132889_j1984274891289_1_alg».proof.Proof.RefRead
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## Steps of the walk back along the fold -/

/-- A stretch of host operations that does not write the buffer: `after ops V b = X` becomes `V b = X`
    (each operation's one written reference is told apart from `b` by deciding the references' inequality). -/
local macro "host_skip " ops:ident : tactic =>
  `(tactic| (
    refine Eq.trans (StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))) ?_))

/-- The three stretches before the first call write none of the buffer: `W3 … b = X` becomes `W0 … b = X`. -/
local macro "to_launch" : tactic =>
  `(tactic| (host_skip hostOps0_2; host_skip hostOps0_1; host_skip hostOps0))

/-- The first two calls and the stretch between them leave the buffer alone: `W6 … b = X` becomes `W3 … b = X`. -/
local macro "w6_to_w3" : tactic =>
  `(tactic| (refine (W6_of_ne _ _ _ _ (by decide)).trans ?_; host_skip hostOps1
             refine (W4_of_ne _ _ _ _ (by decide)).trans ?_))

/-- The third and fourth call and the two stretches before them leave the buffer alone: `W10 … b = X` becomes
    `W6 … b = X`. -/
local macro "w10_to_w6" : tactic =>
  `(tactic| (refine (W10_of_ne _ _ _ _ (by decide)).trans ?_; host_skip hostOps3
             refine (W8_of_ne _ _ _ _ (by decide)).trans ?_; host_skip hostOps2))

/-! ## A concatenate of two operands, as a function of the operands

`concatenate` takes its operands as a list of (shape, value) pairs, and its shape fact is about that list. `cat2` is the
same value with the two operands as plain arguments, so that an equation of the operands is an equation of the
concatenates: the results of a stretch are computed through it, operand by operand. -/

/-- `concatenate` of two operands. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_eq_cat2 {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- The results of a stretch of host operations, each operation's result at its own buffer and the earlier contents at
    every other one, going on into the operands of a two-operand concatenate. -/
local macro "after_results_cat" : tactic =>
  `(tactic| (simp (disch := decide) only [after_cons, after_nil, concatenate_eq_cat2,
      nullary_result', unary_result', binary_result', ternary_result', quaternary_result', reshape_result',
      nullary_result_ne', unary_result_ne', binary_result_ne', ternary_result_ne', quaternary_result_ne', reshape_result_ne']))

/-! ## Before the first call -/

theorem W3_arg0 : W3 m ρ c (Proc.devRef .tc main_arg0) = m ((c : Thread nD τ).loc main_arg0) := by
  to_launch; rfl
theorem W3_arg3 : W3 m ρ c (Proc.devRef .tc main_arg3) = m ((c : Thread nD τ).loc main_arg3) := by
  to_launch; rfl
/-- The first bias row, reshaped to 1 × 128. -/
theorem W3_v17 : W3 m ρ c (Proc.devRef .tc main_v17)
    = shapeCast S1x128 (m ((c : Thread nD τ).loc main_arg4)) shapeCasts_S128_S1x128 := by
  show StableHlo.after hostOps0_2 (W2 m ρ c) (Proc.devRef .tc main_v17) = _
  simp only [hostOps0_2]
  after_results_simp
  rfl
/-- Source rows (with the self loops appended), target rows, and the degree normalisation: the reference's own stages. -/
theorem W3_v5 : W3 m ρ c (Proc.devRef .tc main_v5)
    = Cert.ReferenceIdeal.ReadP.val_main_v5 (F := F) (m ((c : Thread nD τ).loc main_arg1)) := by
  show StableHlo.after hostOps0_2 (W2 m ρ c) (Proc.devRef .tc main_v5) = _
  after_results_cat
  rfl
theorem W3_v6 : W3 m ρ c (Proc.devRef .tc main_v6)
    = Cert.ReferenceIdeal.ReadP.val_main_v6 (F := F) (m ((c : Thread nD τ).loc main_arg1)) := by
  show StableHlo.after hostOps0_2 (W2 m ρ c) (Proc.devRef .tc main_v6) = _
  after_results_cat
  rfl
theorem W3_v16 : W3 m ρ c (Proc.devRef .tc main_v16)
    = Cert.ReferenceIdeal.ReadP.val_main_v16 (F := F) (m ((c : Thread nD τ).loc main_arg1)) := by
  show StableHlo.after hostOps0_2 (W2 m ρ c) (Proc.devRef .tc main_v16) = _
  after_results_cat
  rfl

/-! ## Between the first and the second call -/

theorem W5_v18 : W5 m ρ c (Proc.devRef .tc main_v18) = W4 m ρ c (Proc.devRef .tc main_v18) := by
  host_skip hostOps1; rfl
theorem W5_arg7 : W5 m ρ c (Proc.devRef .tc main_arg7) = m ((c : Thread nD τ).loc main_arg7) := by
  host_skip hostOps1
  refine (W4_of_ne m ρ c main_arg7 (by decide)).trans ?_
  to_launch; rfl
/-- The zero bias row of the first projection. -/
theorem W5_v20 : W5 m ρ c (Proc.devRef .tc main_v20)
    = shapeCast S1x128 (broadcastInDim S128 ![] bcast_S_S128 (constant (F := F) S_ .f32 0x00000000#32)) shapeCasts_S128_S1x128 := by
  show StableHlo.after hostOps1 (W4 m ρ c) (Proc.devRef .tc main_v20) = _
  after_results_simp
  rfl

/-! ## The first aggregation stretch -/

/-- The edge tables and the degree normalisation are still there after the second call; so is the second bias. -/
theorem W6_v5 : W6 m ρ c (Proc.devRef .tc main_v5)
    = Cert.ReferenceIdeal.ReadP.val_main_v5 (F := F) (m ((c : Thread nD τ).loc main_arg1)) := by
  w6_to_w3; exact W3_v5 m ρ c
theorem W6_v6 : W6 m ρ c (Proc.devRef .tc main_v6)
    = Cert.ReferenceIdeal.ReadP.val_main_v6 (F := F) (m ((c : Thread nD τ).loc main_arg1)) := by
  w6_to_w3; exact W3_v6 m ρ c
theorem W6_v16 : W6 m ρ c (Proc.devRef .tc main_v16)
    = Cert.ReferenceIdeal.ReadP.val_main_v16 (F := F) (m ((c : Thread nD τ).loc main_arg1)) := by
  w6_to_w3; exact W3_v16 m ρ c
theorem W6_arg8 : W6 m ρ c (Proc.devRef .tc main_arg8) = m ((c : Thread nD τ).loc main_arg8) := by
  w6_to_w3; to_launch; rfl

/-- If the second call left the reference's first projection, the stretch after it leaves the reference's first aggregation. -/
theorem W7_v49
    (h : W6 m ρ c (Proc.devRef .tc main_v21)
      = Cert.ReferenceIdeal.ReadP.val_main_v25 (F := F) (m ((c : Thread nD τ).loc main_arg0)) (m ((c : Thread nD τ).loc main_arg3))
          (m ((c : Thread nD τ).loc main_arg4)) (m ((c : Thread nD τ).loc main_arg7))) :
    W7 m ρ c (Proc.devRef .tc main_v49)
      = Cert.ReferenceIdeal.ReadP.val_main_v53 (F := F) (m ((c : Thread nD τ).loc main_arg0)) (m ((c : Thread nD τ).loc main_arg1))
          (m ((c : Thread nD τ).loc main_arg3)) (m ((c : Thread nD τ).loc main_arg4)) (m ((c : Thread nD τ).loc main_arg7)) := by
  show StableHlo.after hostOps2 (W6 m ρ c) (Proc.devRef .tc main_v49) = _
  after_results_simp
  rw [h, W6_v16, W6_v5, W6_v6]
  rfl
theorem W7_v50 : W7 m ρ c (Proc.devRef .tc main_v50)
    = shapeCast S1x128 (m ((c : Thread nD τ).loc main_arg8)) shapeCasts_S128_S1x128 := by
  show StableHlo.after hostOps2 (W6 m ρ c) (Proc.devRef .tc main_v50) = _
  after_results_simp
  rw [W6_arg8]
  rfl

/-! ## Between the third and the fourth call -/

theorem W9_v51 : W9 m ρ c (Proc.devRef .tc main_v51) = W8 m ρ c (Proc.devRef .tc main_v51) := by
  host_skip hostOps3; rfl
theorem W9_arg9 : W9 m ρ c (Proc.devRef .tc main_arg9) = m ((c : Thread nD τ).loc main_arg9) := by
  host_skip hostOps3
  refine (W8_of_ne m ρ c main_arg9 (by decide)).trans ?_
  host_skip hostOps2
  refine (W6_of_ne m ρ c main_arg9 (by decide)).trans ?_
  host_skip hostOps1
  refine (W4_of_ne m ρ c main_arg9 (by decide)).trans ?_
  to_launch; rfl
/-- The zero bias row of the second projection. -/
theorem W9_v53 : W9 m ρ c (Proc.devRef .tc main_v53)
    = shapeCast S1x128 (broadcastInDim S128 ![] bcast_S_S128 (constant (F := F) S_ .f32 0x00000000#32)) shapeCasts_S128_S1x128 := by
  show StableHlo.after hostOps3 (W8 m ρ c) (Proc.devRef .tc main_v53) = _
  after_results_simp
  rfl

/-! ## The second aggregation stretch -/

/-- The edge tables and the degree normalisation are still there after the fourth call; so is the third bias. -/
theorem W10_v5 : W10 m ρ c (Proc.devRef .tc main_v5)
    = Cert.ReferenceIdeal.ReadP.val_main_v5 (F := F) (m ((c : Thread nD τ).loc main_arg1)) := by
  w10_to_w6; exact W6_v5 m ρ c
theorem W10_v6 : W10 m ρ c (Proc.devRef .tc main_v6)
    = Cert.ReferenceIdeal.ReadP.val_main_v6 (F := F) (m ((c : Thread nD τ).loc main_arg1)) := by
  w10_to_w6; exact W6_v6 m ρ c
theorem W10_v16 : W10 m ρ c (Proc.devRef .tc main_v16)
    = Cert.ReferenceIdeal.ReadP.val_main_v16 (F := F) (m ((c : Thread nD τ).loc main_arg1)) := by
  w10_to_w6; exact W6_v16 m ρ c
theorem W10_arg10 : W10 m ρ c (Proc.devRef .tc main_arg10) = m ((c : Thread nD τ).loc main_arg10) := by
  w10_to_w6; w6_to_w3; to_launch; rfl

/-- If the fourth call left the reference's second projection, the stretch after it leaves the reference's second aggregation. -/
theorem W11_v82
    (h : W10 m ρ c (Proc.devRef .tc main_v54)
      = Cert.ReferenceIdeal.ReadP.val_main_v58 (F := F) (m ((c : Thread nD τ).loc main_arg0)) (m ((c : Thread nD τ).loc main_arg1))
          (m ((c : Thread nD τ).loc main_arg3)) (m ((c : Thread nD τ).loc main_arg4)) (m ((c : Thread nD τ).loc main_arg7))
          (m ((c : Thread nD τ).loc main_arg8)) (m ((c : Thread nD τ).loc main_arg9))) :
    W11 m ρ c (Proc.devRef .tc main_v82)
      = Cert.ReferenceIdeal.ReadP.val_main_v86 (F := F) (m ((c : Thread nD τ).loc main_arg0)) (m ((c : Thread nD τ).loc main_arg1))
          (m ((c : Thread nD τ).loc main_arg3)) (m ((c : Thread nD τ).loc main_arg4)) (m ((c : Thread nD τ).loc main_arg7))
          (m ((c : Thread nD τ).loc main_arg8)) (m ((c : Thread nD τ).loc main_arg9)) := by
  show StableHlo.after hostOps4 (W10 m ρ c) (Proc.devRef .tc main_v82) = _
  after_results_simp
  rw [h, W10_v16, W10_v5, W10_v6]
  rfl
theorem W11_v83 : W11 m ρ c (Proc.devRef .tc main_v83)
    = shapeCast S1x128 (m ((c : Thread nD τ).loc main_arg10)) shapeCasts_S128_S1x128 := by
  show StableHlo.after hostOps4 (W10 m ρ c) (Proc.devRef .tc main_v83) = _
  after_results_simp
  rw [W10_arg10]
  rfl

end Cert.KernelIdeal.Fold

end
-- ==== Proof.Spec.lean ====
/-
  The two dense shapes this certificate's kernels compute, written once over the extended reals, index by index.
  A node-feature matrix has 100000 rows; every layer's output has 128 columns.

  * `lin x w b`: row `r` of `x` against column `j` of `w`, summed over the inner axis, plus the bias row's entry `j`
    (the bias is carried as a 1 × 128 array).
  * `brelu a b`: the bias row added to every row of `a`, then the positive part.

  With a zero bias row `lin` is the plain matrix product (`lin_zero_bias`): on the extended reals `s + 0 = s` for every
  `s`, the infinities included, so no finiteness is needed.
-/
import Idealize.ShloMosaic.PureOps.Ideal
import Idealize.ShloMosaic.Lib.ValueIdx

noncomputable section

namespace Cert.Spec

open Idealize.ShloMosaic Idealize.ShloMosaic.ValueIdx
open scoped BigOperators

/-- The dense layer: `(x · w) r j + b 0 j`. -/
def lin {K : Nat} (x : (⟨2, ![100000, K]⟩ : Shape).Idx → EReal) (w : (⟨2, ![K, 128]⟩ : Shape).Idx → EReal)
    (b : (⟨2, ![1, 128]⟩ : Shape).Idx → EReal) : (⟨2, ![100000, 128]⟩ : Shape).Idx → EReal :=
  fun i => (∑ k : Fin K, x (ix2 (n0 := 100000) (i 0) k) * w (ix2 k (n1 := 128) (i 1))) + b (ix2 (0 : Fin 1) (n1 := 128) (i 1))

/-- Bias row added, then the positive part: `max (a r j + b 0 j) 0`. -/
def brelu (a : (⟨2, ![100000, 128]⟩ : Shape).Idx → EReal) (b : (⟨2, ![1, 128]⟩ : Shape).Idx → EReal) :
    (⟨2, ![100000, 128]⟩ : Shape).Idx → EReal :=
  fun i => max (a i + b (ix2 (0 : Fin 1) (n1 := 128) (i 1))) 0

theorem lin_apply {K : Nat} (x : (⟨2, ![100000, K]⟩ : Shape).Idx → EReal) (w : (⟨2, ![K, 128]⟩ : Shape).Idx → EReal)
    (b : (⟨2, ![1, 128]⟩ : Shape).Idx → EReal) (r : Fin 100000) (j : Fin 128) :
    lin x w b (ix2 r j) = (∑ k : Fin K, x (ix2 r k) * w (ix2 k j)) + b (ix2 (0 : Fin 1) j) := rfl

theorem brelu_apply (a : (⟨2, ![100000, 128]⟩ : Shape).Idx → EReal) (b : (⟨2, ![1, 128]⟩ : Shape).Idx → EReal)
    (r : Fin 100000) (j : Fin 128) : brelu a b (ix2 r j) = max (a (ix2 r j) + b (ix2 (0 : Fin 1) j)) 0 := rfl

/-- Against a zero bias row the dense layer is the matrix product alone. -/
theorem lin_zero_bias {K : Nat} (x : (⟨2, ![100000, K]⟩ : Shape).Idx → EReal) (w : (⟨2, ![K, 128]⟩ : Shape).Idx → EReal)
    (b : (⟨2, ![1, 128]⟩ : Shape).Idx → EReal) (hb : ∀ y, b y = 0) (i : (⟨2, ![100000, 128]⟩ : Shape).Idx) :
    lin x w b i = ∑ k : Fin K, x (ix2 (n0 := 100000) (i 0) k) * w (ix2 k (n1 := 128) (i 1)) := by
  unfold lin
  rw [hb, add_zero]

end Cert.Spec

end
-- ==== Proof.Region0.lean ====
/-
  The first dense layer, `x · Wn + bn`, as the first pallas_call leaves it in its output array.
  The call walks 20 row tiles of 5000 rows. At tile `t` the body reads rows `5000 t … 5000 t + 4999` of `x`, all of the
  weights and the bias row, and stores, for local row `p` and column `q`, `∑ k, x (5000 t + p, k) · w (k, q) + b (0, q)`:
  the matrix unit's product into a zero accumulator is that sum at the extended reals, and the narrowing of the operands
  to bf16 is the identity there. That is tile `t` of `Spec.lin x w b`; the 20 tiles cover the 100000 rows, so the output
  array ends at `Spec.lin` of the arrays the call found.
-/
import proofs.«132889_j1984274891289_1_alg».proof.Proof.Gen.KernelIdeal.Frame
import proofs.«132889_j1984274891289_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

theorem hz : (![0, 0] : Fin 2 → Nat) = fun _ => 0 := funext fun a => by fin_cases a <;> rfl

abbrev D := dot_S5000x32_S32x128_S5000x128_1_0_0_1_n_n

theorem lhs_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl
theorem lhs_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q
theorem rhs_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q
theorem rhs_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- The product into the zero accumulator, at local row `p` and column `q`: the inner sum. -/
theorem matmul_at (x : FVec Ideal S5000x32 .bf16) (w : FVec Ideal S32x128 .bf16) (p : Fin 5000) (q : Fin 128) :
    matmul (F := Ideal) dot_S5000x32_S32x128_S5000x128_1_0_0_1_n_n none x w (constant S5000x128 .f32 0x00000000#32) (ix2 p q)
      = ∑ k : Fin 32, x (ix2 p k) * w (ix2 k q) := by
  simp only [matmul]
  rw [Ideal.matmul_constant_zero_apply, ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 p q) ((contrEquiv1 dot_S5000x32_S32x128_S5000x128_1_0_0_1_n_n 32 rfl rfl).symm k) = ix2 p k := funext fun a => Fin.ext (by
    match a with
    | ⟨0, _⟩ => exact lhs_0 _ _
    | ⟨1, _⟩ => exact (lhs_1 _ _).trans hk)
  have er : dot_S5000x32_S32x128_S5000x128_1_0_0_1_n_n.rhsIdx (ix2 p q) ((contrEquiv1 dot_S5000x32_S32x128_S5000x128_1_0_0_1_n_n 32 rfl rfl).symm k) = ix2 k q := funext fun a => Fin.ext (by
    match a with
    | ⟨0, _⟩ => exact (rhs_0 _ _).trans hk
    | ⟨1, _⟩ => exact rhs_1 _ _)
  rw [el, er]

/-- The bias row spread over the tile's rows, at local row `p` and column `q`: the row's entry `q`. -/
theorem bias_at (b : Vec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  rw [shapeCast_self]
  exact broadcastTo_apply b broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- What the body stores, at local row `p` and column `q`. -/
theorem pay_at (x : Vec Ideal S5000x32 .f32) (w : Vec Ideal S32x128 .f32) (b : Vec Ideal S1x128 .f32) (p : Fin 5000) (q : Fin 128) :
    k0_pay1 (F := Ideal) x w b (ix2 p q) = (∑ k : Fin 32, x (ix2 p k) * w (ix2 k q)) + b (ix2 (0 : Fin 1) q) := by
  unfold k0_pay1
  show matmul (F := Ideal) dot_S5000x32_S32x128_S5000x128_1_0_0_1_n_n none _ _ (constant S5000x128 .f32 0x00000000#32) (ix2 p q) + broadcastTo S5000x128 (shapeCast S1x128 b shapeCasts_S1x128_S1x128) broadcasts_S1x128_S5000x128 (ix2 p q) = _
  rw [matmul_at, bias_at]
  rfl

/-! ## From tiles to the array -/

variable (V : (c : Dev nD) → (b : Ref sig .tc) → Buf (Elt Ideal) ((c : Thread nD τ).loc b))

/-- The printed index maps over the grid: the `x` window and the output window sit on tile `t`'s rows, the weights and the
    bias row are read whole at every tile. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input tiles read where the output tile's local index says. -/
theorem x_at (c : Dev nD) (t : Fin cfg0.N) (p : Fin 5000) (k : Fin 32) :
    iblk0 V c 0 t (ix2 p k) = V c main_arg0 (ix2 (n0 := 100000) ⟨t.val * 5000 + p.val, by have := t.isLt; have := p.isLt; have : cfg0.N = 20 := N_0; omega⟩ k) := by
  obtain ⟨e0, e1, -⟩ := idx_facts t
  show V c main_arg0 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 32 + 1 * k.val = k.val; omega

theorem w_at (c : Dev nD) (t : Fin cfg0.N) (k : Fin 32) (q : Fin 128) :
    iblk0 V c 1 t (ix2 k q) = V c main_arg3 (ix2 k q) := by
  obtain ⟨-, -, e2, e3, -⟩ := idx_facts t
  show V c main_arg3 (((cfg0.win 1).blk t).view.emb (ix2 k q)) = _
  refine congrArg _ (funext fun a => Fin.ext ?_)
  match a with
  | ⟨0, _⟩ => show win0_1.index t (0 : Fin 2) * 32 + 1 * k.val = k.val; omega
  | ⟨1, _⟩ => show win0_1.index t (1 : Fin 2) * 128 + 1 * q.val = q.val; omega

theorem b_at (c : Dev nD) (t : Fin cfg0.N) (q : Fin 128) :
    iblk0 V c 2 t (ix2 (0 : Fin 1) q) = V c main_v17 (ix2 (0 : Fin 1) q) := by
  obtain ⟨-, -, -, -, e4, e5, -⟩ := idx_facts t
  show V c main_v17 (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- What tile `t` writes back is tile `t` of the dense layer of the arrays as the call finds them. -/
theorem flushed_eq (c : Dev nD) (t : Fin cfg0.N) :
    (dat0 V c).flushed 3 t
      = ((cfg0.win 3).blk t).view.read (Elt Ideal) (Cert.Spec.lin (V c main_arg0) (V c main_arg3) (V c main_v17)) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x128) hz, View.ld_unit_zero (S := S1x128) hz]
  obtain ⟨-, -, -, -, -, -, e6, e7⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Cert.Spec.lin (V c main_arg0) (V c main_arg3) (V c main_v17) (((cfg0.win 3).blk t).view.emb (ix2 p q))
  have hemb : ((cfg0.win 3).blk t).view.emb (ix2 p q)
      = ix2 (n0 := 100000) ⟨t.val * 5000 + p.val, by have := t.isLt; have := p.isLt; have : cfg0.N = 20 := N_0; omega⟩ q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  rw [hemb, pay_at, Cert.Spec.lin_apply, b_at]
  refine congrArg (· + _) (Finset.sum_congr rfl fun k _ => ?_)
  rw [x_at, w_at]

/-- An index of the array is in tile `t` iff each coordinate is in the tile's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Every row lies in the tile of its quotient by 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, -, -, e6, e7⟩ := idx_facts t
  have e6' : win0_3.index t (0 : Fin 2) = (i 0).val / 5000 := e6
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the call: the dense layer of the arrays the call found. -/
theorem final (c : Dev nD) :
    (dat0 V c).arrAt 3 cfg0.N = Cert.Spec.lin (V c main_arg0) (V c main_arg3) (V c main_v17) :=
  (dat0 V c).arrAt_eq_of_cover 3 _ (fun t _ => flushed_eq V c t) cover

end Cert.KernelIdeal.Region0

end
-- ==== Proof.Region1.lean ====
/-
  The first projection, `h · W1`, as the second pallas_call leaves it in its output array (the call adds a bias row that
  the host made of zeros; that it is zero is used where this is joined to the reference, not here).
  The call walks 20 row tiles of 5000 rows. At tile `t` the body reads rows `5000 t … 5000 t + 4999` of `h`, all of the
  weights and the bias row, and stores, for local row `p` and column `q`, `∑ k, h (5000 t + p, k) · w (k, q) + b (0, q)`:
  the matrix unit's product into a zero accumulator is that sum at the extended reals, the narrowing of the operands to
  bf16 is the identity there, and so is the reshape of the tile to its own shape. That is tile `t` of `Spec.lin h w b`;
  the 20 tiles cover the 100000 rows, so the output array ends at `Spec.lin` of the arrays the call found.
-/
import proofs.«132889_j1984274891289_1_alg».proof.Proof.Gen.KernelIdeal.Frame
import proofs.«132889_j1984274891289_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

theorem hz : (![0, 0] : Fin 2 → Nat) = fun _ => 0 := funext fun a => by fin_cases a <;> rfl

abbrev D := dot_S5000x128_S128x128_S5000x128_1_0_0_1_n_n

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at local row `p` and column `q`: the inner sum. -/
theorem matmul_at (x : FVec Ideal S5000x128 .bf16) (w : FVec Ideal S128x128 .bf16) (p : Fin 5000) (q : Fin 128) :
    matmul (F := Ideal) dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row spread over the tile's rows, at local row `p` and column `q`: the row's entry `q`. -/
theorem bias_at (b : Vec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  rw [shapeCast_self]
  exact broadcastTo_apply b broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- What the body stores, at local row `p` and column `q`. -/
theorem pay_at (x : Vec Ideal S5000x128 .f32) (w : Vec Ideal S128x128 .f32) (b : Vec Ideal S1x128 .f32) (p : Fin 5000) (q : Fin 128) :
    k1_pay1 (F := Ideal) x w b (ix2 p q) = (∑ k : Fin 128, x (ix2 p k) * w (ix2 k q)) + b (ix2 (0 : Fin 1) q) := by
  unfold k1_pay1
  show matmul (F := Ideal) dot_S5000x128_S128x128_S5000x128_1_0_0_1_n_n none
      (truncf .bf16 (shapeCast S5000x128 x shapeCasts_S5000x128_S5000x128) bitsLt_bf16_f32) (truncf .bf16 w bitsLt_bf16_f32)
      (constant S5000x128 .f32 0x00000000#32) (ix2 p q)
    + broadcastTo S5000x128 (shapeCast S1x128 b shapeCasts_S1x128_S1x128) broadcasts_S1x128_S5000x128 (ix2 p q) = _
  rw [shapeCast_self, matmul_at, bias_at]
  rfl

/-! ## From tiles to the array -/

variable (V : (c : Dev nD) → (b : Ref sig .tc) → Buf (Elt Ideal) ((c : Thread nD τ).loc b))

/-- The printed index maps over the grid: the `x` window and the output window sit on tile `t`'s rows, the weights and the
    bias row are read whole at every tile. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three input tiles read where the output tile's local index says. -/
theorem x_at (c : Dev nD) (t : Fin cfg1.N) (p : Fin 5000) (k : Fin 128) :
    iblk1 V c 0 t (ix2 p k) = V c main_v18 (ix2 (n0 := 100000) ⟨t.val * 5000 + p.val, by have := t.isLt; have := p.isLt; have : cfg1.N = 20 := N_1; omega⟩ k) := by
  obtain ⟨e0, e1, -⟩ := idx_facts t
  show V c main_v18 (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem w_at (c : Dev nD) (t : Fin cfg1.N) (k : Fin 128) (q : Fin 128) :
    iblk1 V c 1 t (ix2 k q) = V c main_arg7 (ix2 k q) := by
  obtain ⟨-, -, e2, e3, -⟩ := idx_facts t
  show V c main_arg7 (((cfg1.win 1).blk t).view.emb (ix2 k q)) = _
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

theorem b_at (c : Dev nD) (t : Fin cfg1.N) (q : Fin 128) :
    iblk1 V c 2 t (ix2 (0 : Fin 1) q) = V c main_v20 (ix2 (0 : Fin 1) q) := by
  obtain ⟨-, -, -, -, e4, e5, -⟩ := idx_facts t
  show V c main_v20 (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- What tile `t` writes back is tile `t` of the dense layer of the arrays as the call finds them. -/
theorem flushed_eq (c : Dev nD) (t : Fin cfg1.N) :
    (dat1 V c).flushed 3 t
      = ((cfg1.win 3).blk t).view.read (Elt Ideal) (Cert.Spec.lin (V c main_v18) (V c main_arg7) (V c main_v20)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  obtain ⟨-, -, -, -, -, -, e6, e7⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = Cert.Spec.lin (V c main_v18) (V c main_arg7) (V c main_v20) (((cfg1.win 3).blk t).view.emb (ix2 p q))
  have hemb : ((cfg1.win 3).blk t).view.emb (ix2 p q)
      = ix2 (n0 := 100000) ⟨t.val * 5000 + p.val, by have := t.isLt; have := p.isLt; have : cfg1.N = 20 := N_1; omega⟩ q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [hemb, pay_at, Cert.Spec.lin_apply, b_at]
  refine congrArg (· + _) (Finset.sum_congr rfl fun k _ => ?_)
  rw [x_at, w_at]

/-- An index of the array is in tile `t` iff each coordinate is in the tile's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v21).slice (win1_3.rect t)).set ↔ _
  rw [View.set_slice_whole, Rect.mem_set_unit]
  exact Iff.rfl

/-- Every row lies in the tile of its quotient by 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by omega⟩
  obtain ⟨-, -, -, -, -, -, e6, e7⟩ := idx_facts t
  have e6' : win1_3.index t (0 : Fin 2) = (i 0).val / 5000 := e6
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the call: the dense layer of the arrays the call found. -/
theorem final (c : Dev nD) :
    (dat1 V c).arrAt 3 cfg1.N = Cert.Spec.lin (V c main_v18) (V c main_arg7) (V c main_v20) :=
  (dat1 V c).arrAt_eq_of_cover 3 _ (fun t _ => flushed_eq V c t) cover

end Cert.KernelIdeal.Region1

end
-- ==== Proof.Region2.lean ====
/-
  Bias and positive part after the first aggregation, as the third pallas_call leaves it in its output array.
  The call walks 20 row tiles of 5000 rows. At tile `t` the body reads rows `5000 t … 5000 t + 4999` of the aggregated
  features `a` and the bias row `b`, and stores, for local row `p` and column `q`, `max (a (5000 t + p, q) + b (0, q)) 0`
  (the reshape of a tile to its own shape is the identity, the float word zero is the real zero). That is tile `t` of
  `Spec.brelu a b`; the 20 tiles cover the 100000 rows, so the output array ends at `Spec.brelu` of the arrays the call found.
-/
import proofs.«132889_j1984274891289_1_alg».proof.Proof.Gen.KernelIdeal.Frame
import proofs.«132889_j1984274891289_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

theorem hz : (![0, 0] : Fin 2 → Nat) = fun _ => 0 := funext fun a => by fin_cases a <;> rfl

/-- The bias row spread over the tile's rows, at local row `p` and column `q`: the row's entry `q`. -/
theorem bias_at (b : Vec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  rw [shapeCast_self]
  exact broadcastTo_apply b broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- What the body stores, at local row `p` and column `q`. -/
theorem pay_at (x : Vec Ideal S5000x128 .f32) (b : Vec Ideal S1x128 .f32) (p : Fin 5000) (q : Fin 128) :
    k2_pay1 (F := Ideal) x b (ix2 p q) = max (x (ix2 p q) + b (ix2 (0 : Fin 1) q)) 0 := by
  unfold k2_pay1
  show max (shapeCast S5000x128 x shapeCasts_S5000x128_S5000x128 (ix2 p q)
      + broadcastTo S5000x128 (shapeCast S1x128 b shapeCasts_S1x128_S1x128) broadcasts_S1x128_S5000x128 (ix2 p q))
    (Ideal.ofBits .f32 0x00000000#32) = _
  rw [shapeCast_self, bias_at, Ideal.ofBits_zero_f32]

/-! ## From tiles to the array -/

variable (V : (c : Dev nD) → (b : Ref sig .tc) → Buf (Elt Ideal) ((c : Thread nD τ).loc b))

/-- The printed index maps over the grid: the feature window and the output window sit on tile `t`'s rows, the bias row is
    read whole at every tile. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The two input tiles read where the output tile's local index says. -/
theorem x_at (c : Dev nD) (t : Fin cfg2.N) (p : Fin 5000) (q : Fin 128) :
    iblk2 V c 0 t (ix2 p q) = V c main_v49 (ix2 (n0 := 100000) ⟨t.val * 5000 + p.val, by have := t.isLt; have := p.isLt; have : cfg2.N = 20 := N_2; omega⟩ q) := by
  obtain ⟨e0, e1, -⟩ := idx_facts t
  show V c main_v49 (((cfg2.win 0).blk t).view.emb (ix2 p q)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * q.val = q.val; omega

theorem b_at (c : Dev nD) (t : Fin cfg2.N) (q : Fin 128) :
    iblk2 V c 1 t (ix2 (0 : Fin 1) q) = V c main_v50 (ix2 (0 : Fin 1) q) := by
  obtain ⟨-, -, e2, e3, -⟩ := idx_facts t
  show V c main_v50 (((cfg2.win 1).blk t).view.emb (ix2 (0 : Fin 1) q)) = _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

/-- What tile `t` writes back is tile `t` of the biased positive part of the arrays as the call finds them. -/
theorem flushed_eq (c : Dev nD) (t : Fin cfg2.N) :
    (dat2 V c).flushed 2 t
      = ((cfg2.win 2).blk t).view.read (Elt Ideal) (Cert.Spec.brelu (V c main_v49) (V c main_v50)) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  obtain ⟨-, -, -, -, e4, e5⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
    = Cert.Spec.brelu (V c main_v49) (V c main_v50) (((cfg2.win 2).blk t).view.emb (ix2 p q))
  have hemb : ((cfg2.win 2).blk t).view.emb (ix2 p q)
      = ix2 (n0 := 100000) ⟨t.val * 5000 + p.val, by have := t.isLt; have := p.isLt; have : cfg2.N = 20 := N_2; omega⟩ q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  rw [hemb, pay_at, Cert.Spec.brelu_apply, b_at, x_at]

/-- An index of the array is in tile `t` iff each coordinate is in the tile's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- Every row lies in the tile of its quotient by 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by omega⟩
  obtain ⟨-, -, -, -, e4, e5⟩ := idx_facts t
  have e4' : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the call: the biased positive part of the arrays the call found. -/
theorem final (c : Dev nD) :
    (dat2 V c).arrAt 2 cfg2.N = Cert.Spec.brelu (V c main_v49) (V c main_v50) :=
  (dat2 V c).arrAt_eq_of_cover 2 _ (fun t _ => flushed_eq V c t) cover

end Cert.KernelIdeal.Region2

end
-- ==== Proof.Region3.lean ====
/-
  The second projection, `h · W2`, as the fourth pallas_call leaves it in its output array (the call adds a bias row that
  the host made of zeros; that it is zero is used where this is joined to the reference, not here).
  The call walks 20 row tiles of 5000 rows. At tile `t` the body reads rows `5000 t … 5000 t + 4999` of `h`, all of the
  weights and the bias row, and stores, for local row `p` and column `q`, `∑ k, h (5000 t + p, k) · w (k, q) + b (0, q)`:
  the matrix unit's product into a zero accumulator is that sum at the extended reals, the narrowing of the operands to
  bf16 is the identity there, and so is the reshape of the tile to its own shape. That is tile `t` of `Spec.lin h w b`;
  the 20 tiles cover the 100000 rows, so the output array ends at `Spec.lin` of the arrays the call found.
-/
import proofs.«132889_j1984274891289_1_alg».proof.Proof.Gen.KernelIdeal.Frame
import proofs.«132889_j1984274891289_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

theorem hz : (![0, 0] : Fin 2 → Nat) = fun _ => 0 := funext fun a => by fin_cases a <;> rfl

abbrev D := dot_S5000x128_S128x128_S5000x128_1_0_0_1_n_n

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at local row `p` and column `q`: the inner sum. -/
theorem matmul_at (x : FVec Ideal S5000x128 .bf16) (w : FVec Ideal S128x128 .bf16) (p : Fin 5000) (q : Fin 128) :
    matmul (F := Ideal) dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row spread over the tile's rows, at local row `p` and column `q`: the row's entry `q`. -/
theorem bias_at (b : Vec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  rw [shapeCast_self]
  exact broadcastTo_apply b broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- What the body stores, at local row `p` and column `q`. -/
theorem pay_at (x : Vec Ideal S5000x128 .f32) (w : Vec Ideal S128x128 .f32) (b : Vec Ideal S1x128 .f32) (p : Fin 5000) (q : Fin 128) :
    k3_pay1 (F := Ideal) x w b (ix2 p q) = (∑ k : Fin 128, x (ix2 p k) * w (ix2 k q)) + b (ix2 (0 : Fin 1) q) := by
  unfold k3_pay1
  show matmul (F := Ideal) dot_S5000x128_S128x128_S5000x128_1_0_0_1_n_n none
      (truncf .bf16 (shapeCast S5000x128 x shapeCasts_S5000x128_S5000x128) bitsLt_bf16_f32) (truncf .bf16 w bitsLt_bf16_f32)
      (constant S5000x128 .f32 0x00000000#32) (ix2 p q)
    + broadcastTo S5000x128 (shapeCast S1x128 b shapeCasts_S1x128_S1x128) broadcasts_S1x128_S5000x128 (ix2 p q) = _
  rw [shapeCast_self, matmul_at, bias_at]
  rfl

/-! ## From tiles to the array -/

variable (V : (c : Dev nD) → (b : Ref sig .tc) → Buf (Elt Ideal) ((c : Thread nD τ).loc b))

/-- The printed index maps over the grid: the `x` window and the output window sit on tile `t`'s rows, the weights and the
    bias row are read whole at every tile. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The three input tiles read where the output tile's local index says. -/
theorem x_at (c : Dev nD) (t : Fin cfg3.N) (p : Fin 5000) (k : Fin 128) :
    iblk3 V c 0 t (ix2 p k) = V c main_v51 (ix2 (n0 := 100000) ⟨t.val * 5000 + p.val, by have := t.isLt; have := p.isLt; have : cfg3.N = 20 := N_3; omega⟩ k) := by
  obtain ⟨e0, e1, -⟩ := idx_facts t
  show V c main_v51 (((cfg3.win 0).blk t).view.emb (ix2 p k)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

theorem w_at (c : Dev nD) (t : Fin cfg3.N) (k : Fin 128) (q : Fin 128) :
    iblk3 V c 1 t (ix2 k q) = V c main_arg9 (ix2 k q) := by
  obtain ⟨-, -, e2, e3, -⟩ := idx_facts t
  show V c main_arg9 (((cfg3.win 1).blk t).view.emb (ix2 k q)) = _
  refine congrArg _ (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

theorem b_at (c : Dev nD) (t : Fin cfg3.N) (q : Fin 128) :
    iblk3 V c 2 t (ix2 (0 : Fin 1) q) = V c main_v53 (ix2 (0 : Fin 1) q) := by
  obtain ⟨-, -, -, -, e4, e5, -⟩ := idx_facts t
  show V c main_v53 (((cfg3.win 2).blk t).view.emb (ix2 (0 : Fin 1) q)) = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- What tile `t` writes back is tile `t` of the dense layer of the arrays as the call finds them. -/
theorem flushed_eq (c : Dev nD) (t : Fin cfg3.N) :
    (dat3 V c).flushed 3 t
      = ((cfg3.win 3).blk t).view.read (Elt Ideal) (Cert.Spec.lin (V c main_v51) (V c main_arg9) (V c main_v53)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S1x128) hz]
  obtain ⟨-, -, -, -, -, -, e6, e7⟩ := idx_facts t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (ix2 p q)
    = Cert.Spec.lin (V c main_v51) (V c main_arg9) (V c main_v53) (((cfg3.win 3).blk t).view.emb (ix2 p q))
  have hemb : ((cfg3.win 3).blk t).view.emb (ix2 p q)
      = ix2 (n0 := 100000) ⟨t.val * 5000 + p.val, by have := t.isLt; have := p.isLt; have : cfg3.N = 20 := N_3; omega⟩ q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  rw [hemb, pay_at, Cert.Spec.lin_apply, b_at]
  refine congrArg (· + _) (Finset.sum_congr rfl fun k _ => ?_)
  rw [x_at, w_at]

/-- An index of the array is in tile `t` iff each coordinate is in the tile's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v54).slice (win3_3.rect t)).set ↔ _
  rw [View.set_slice_whole, Rect.mem_set_unit]
  exact Iff.rfl

/-- Every row lies in the tile of its quotient by 5000. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  let t : Fin cfg3.N := ⟨(i 0).val / 5000, by omega⟩
  obtain ⟨-, -, -, -, -, -, e6, e7⟩ := idx_facts t
  have e6' : win3_3.index t (0 : Fin 2) = (i 0).val / 5000 := e6
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the call: the dense layer of the arrays the call found. -/
theorem final (c : Dev nD) :
    (dat3 V c).arrAt 3 cfg3.N = Cert.Spec.lin (V c main_v51) (V c main_arg9) (V c main_v53) :=
  (dat3 V c).arrAt_eq_of_cover 3 _ (fun t _ => flushed_eq V c t) cover

end Cert.KernelIdeal.Region3

end
-- ==== Proof.Region4.lean ====
/-
  Bias and positive part after the second aggregation, as the fifth pallas_call leaves it in its output array.
  The call walks 20 row tiles of 5000 rows. At tile `t` the body reads rows `5000 t … 5000 t + 4999` of the aggregated
  features `a` and the bias row `b`, and stores, for local row `p` and column `q`, `max (a (5000 t + p, q) + b (0, q)) 0`
  (the reshape of a tile to its own shape is the identity, the float word zero is the real zero). That is tile `t` of
  `Spec.brelu a b`; the 20 tiles cover the 100000 rows, so the output array ends at `Spec.brelu` of the arrays the call found.
-/
import proofs.«132889_j1984274891289_1_alg».proof.Proof.Gen.KernelIdeal.Frame
import proofs.«132889_j1984274891289_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

theorem hz : (![0, 0] : Fin 2 → Nat) = fun _ => 0 := funext fun a => by fin_cases a <;> rfl

/-- The bias row spread over the tile's rows, at local row `p` and column `q`: the row's entry `q`. -/
theorem bias_at (b : Vec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  rw [shapeCast_self]
  exact broadcastTo_apply b broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- What the body stores, at local row `p` and column `q`. -/
theorem pay_at (x : Vec Ideal S5000x128 .f32) (b : Vec Ideal S1x128 .f32) (p : Fin 5000) (q : Fin 128) :
    k4_pay1 (F := Ideal) x b (ix2 p q) = max (x (ix2 p q) + b (ix2 (0 : Fin 1) q)) 0 := by
  unfold k4_pay1
  show max (shapeCast S5000x128 x shapeCasts_S5000x128_S5000x128 (ix2 p q)
      + broadcastTo S5000x128 (shapeCast S1x128 b shapeCasts_S1x128_S1x128) broadcasts_S1x128_S5000x128 (ix2 p q))
    (Ideal.ofBits .f32 0x00000000#32) = _
  rw [shapeCast_self, bias_at, Ideal.ofBits_zero_f32]

/-! ## From tiles to the array -/

variable (V : (c : Dev nD) → (b : Ref sig .tc) → Buf (Elt Ideal) ((c : Thread nD τ).loc b))

/-- The printed index maps over the grid: the feature window and the output window sit on tile `t`'s rows, the bias row is
    read whole at every tile. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The two input tiles read where the output tile's local index says. -/
theorem x_at (c : Dev nD) (t : Fin cfg4.N) (p : Fin 5000) (q : Fin 128) :
    iblk4 V c 0 t (ix2 p q) = V c main_v82 (ix2 (n0 := 100000) ⟨t.val * 5000 + p.val, by have := t.isLt; have := p.isLt; have : cfg4.N = 20 := N_4; omega⟩ q) := by
  obtain ⟨e0, e1, -⟩ := idx_facts t
  show V c main_v82 (((cfg4.win 0).blk t).view.emb (ix2 p q)) = _
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * q.val = q.val; omega

theorem b_at (c : Dev nD) (t : Fin cfg4.N) (q : Fin 128) :
    iblk4 V c 1 t (ix2 (0 : Fin 1) q) = V c main_v83 (ix2 (0 : Fin 1) q) := by
  obtain ⟨-, -, e2, e3, -⟩ := idx_facts t
  show V c main_v83 (((cfg4.win 1).blk t).view.emb (ix2 (0 : Fin 1) q)) = _
  refine congrArg _ (funext fun a => Fin.ext ?_)
  match a with
  | ⟨0, _⟩ => show win4_1.index t (0 : Fin 2) * 1 + 1 * 0 = 0; omega
  | ⟨1, _⟩ => show win4_1.index t (1 : Fin 2) * 128 + 1 * q.val = q.val; omega

/-- What tile `t` writes back is tile `t` of the biased positive part of the arrays as the call finds them. -/
theorem flushed_eq (c : Dev nD) (t : Fin cfg4.N) :
    (dat4 V c).flushed 2 t
      = ((cfg4.win 2).blk t).view.read (Elt Ideal) (Cert.Spec.brelu (V c main_v82) (V c main_v83)) := by
  show (cfg4.win 2).cut (grid4.coords t) ((dat4 V c).after 2 t) = _
  rw [after4_2]
  unfold out4_2
  rw [View.canon_unit_zero hz]
  simp only [View.ld_unit_zero (S := S5000x128) hz, View.ld_unit_zero (S := S1x128) hz]
  obtain ⟨-, -, -, -, e4, e5⟩ := idx_facts t
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (ix2 p q)
    = Cert.Spec.brelu (V c main_v82) (V c main_v83) (((cfg4.win 2).blk t).view.emb (ix2 p q))
  have hemb : ((cfg4.win 2).blk t).view.emb (ix2 p q)
      = ix2 (n0 := 100000) ⟨t.val * 5000 + p.val, by have := t.isLt; have := p.isLt; have : cfg4.N = 20 := N_4; omega⟩ q := by
    funext a; apply Fin.ext
    match a with
    | ⟨0, _⟩ => show win4_2.index t (0 : Fin 2) * 5000 + 1 * p.val = t.val * 5000 + p.val; omega
    | ⟨1, _⟩ => show win4_2.index t (1 : Fin 2) * 128 + 1 * q.val = q.val; omega
  rw [hemb, pay_at, Cert.Spec.brelu_apply, b_at, x_at]

/-- An index of the array is in tile `t` iff each coordinate is in the tile's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v84).slice (win4_2.rect t)).set ↔ _
  rw [View.set_slice_whole, Rect.mem_set_unit]
  exact Iff.rfl

/-- Every row lies in the tile of its quotient by 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  let t : Fin cfg4.N := ⟨(i 0).val / 5000, by omega⟩
  obtain ⟨-, -, -, -, e4, e5⟩ := idx_facts t
  have e4' : win4_2.index t (0 : Fin 2) = (i 0).val / 5000 := e4
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the call: the biased positive part of the arrays the call found. -/
theorem final (c : Dev nD) :
    (dat4 V c).arrAt 2 cfg4.N = Cert.Spec.brelu (V c main_v82) (V c main_v83) :=
  (dat4 V c).arrAt_eq_of_cover 2 _ (fun t _ => flushed_eq V c t) cover

end Cert.KernelIdeal.Region4

end
-- ==== Proof.Bridge.lean ====
/-
  The two dense shapes of `Spec`, met with the reference program's own stages (the generated read-at-an-index lemmas of
  its run, one operation at a time).

  * The reference's first layer is `dot_general x Wn` plus the bias broadcast to every row; the kernel's is `Spec.lin`
    with the bias carried as a 1 × 128 row (a reshape of the 128-vector): index by index both are
    `∑ k, x (r, k) · Wn (k, j) + bn j`.
  * The reference's projections are bare `dot_general`s; the kernel's calls add a row of zeros: `s + 0 = s` on the
    extended reals, for every `s`.
  * The reference adds the broadcast bias and takes `maximum` with a zero splat; the kernel's call does both at once
    (`Spec.brelu`): index by index both are `max (a (r, j) + b j) 0`.
-/
import proofs.«132889_j1984274891289_1_alg».proof.Proof.RefRead
import proofs.«132889_j1984274891289_1_alg».proof.Proof.Spec
import Idealize.ShloMosaic.Lib.Pipeline.Value
import Idealize.ShloMosaic.Lib.ValueIdx
import Idealize.ShloMosaic.PureOps.Ideal.Laws

noncomputable section

namespace Cert.Bridge

open Cert.ReferenceIdeal Cert.ReferenceIdeal.ReadP
open Idealize.ShloMosaic Idealize.ShloMosaic.ValueIdx
open scoped BigOperators

/-- A 128-vector reshaped to a 1 × 128 row, at the row's entry `j`. -/
theorem row_at (x : (⟨S128, .f32⟩ : BufTy).Contents (Elt Ideal)) (hc : S128.ShapeCasts S1x128) (j : Fin 128) :
    shapeCast S1x128 x hc (ix2 (0 : Fin 1) j) = x (ix1 j) :=
  shapeCast_apply x hc (ix2 (0 : Fin 1) j) (ix1 j) (by
    rw [Shape.rowMajor_val_one, Shape.rowMajor_val_two]
    show j.val = 0 * 128 + j.val
    omega)

/-- The reshaped splat of the float word zero is zero everywhere. -/
theorem zero_row_at (hb : S_.BroadcastsInDim S128 (![] : Fin 0 → Fin S128.rank)) (hc : S128.ShapeCasts S1x128) (y : S1x128.Idx) :
    shapeCast S1x128 (broadcastInDim S128 ![] hb (constant (F := Ideal) S_ .f32 0x00000000#32)) hc y = 0 := by
  show Ideal.ofBits .f32 0x00000000#32 = 0
  exact Ideal.ofBits_zero_f32

/-! ## The first dense layer -/

theorem lin_eq_v20 (x0 : (⟨S100000x32, .f32⟩ : BufTy).Contents (Elt Ideal)) (x3 : (⟨S32x128, .f32⟩ : BufTy).Contents (Elt Ideal))
    (x4 : (⟨S128, .f32⟩ : BufTy).Contents (Elt Ideal)) (hc : S128.ShapeCasts S1x128) :
    Cert.Spec.lin (K := 32) x0 x3 (shapeCast S1x128 x4 hc) = val_main_v20 (F := Ideal) x0 x3 x4 := by
  funext i
  obtain ⟨r, j, rfl⟩ : ∃ (r : Fin 100000) (j : Fin 128), i = ix2 r j := ⟨i 0, i 1, eq_ix2 i⟩
  rw [Cert.Spec.lin_apply, row_at, val_main_v20_apply, val_main_v17_apply, val_main_v19_apply, val_main_v18_apply]
  refine congrArg₂ (· + ·) (Finset.sum_congr rfl fun k _ => ?_) ?_
  · have el : lidx_main_v17 (ix2 r j) k = ix2 r k := funext fun a => by
      match a with
      | ⟨0, _⟩ => rfl
      | ⟨1, _⟩ => rfl
    have er : ridx_main_v17 (ix2 r j) k = ix2 k j := funext fun a => by
      match a with
      | ⟨0, _⟩ => rfl
      | ⟨1, _⟩ => rfl
    rw [el, er]
  · exact congrArg x4 (funext fun a => by
      match a with
      | ⟨0, _⟩ => rfl)

/-! ## The projections: a zero bias row adds nothing -/

theorem lin_zero_eq_v25 (x0 : (⟨S100000x32, .f32⟩ : BufTy).Contents (Elt Ideal)) (x3 : (⟨S32x128, .f32⟩ : BufTy).Contents (Elt Ideal))
    (x4 : (⟨S128, .f32⟩ : BufTy).Contents (Elt Ideal)) (x7 : (⟨S128x128, .f32⟩ : BufTy).Contents (Elt Ideal))
    (hb : S_.BroadcastsInDim S128 (![] : Fin 0 → Fin S128.rank)) (hc : S128.ShapeCasts S1x128) :
    Cert.Spec.lin (K := 128) (val_main_v20 (F := Ideal) x0 x3 x4) x7
        (shapeCast S1x128 (broadcastInDim S128 ![] hb (constant (F := Ideal) S_ .f32 0x00000000#32)) hc)
      = val_main_v25 (F := Ideal) x0 x3 x4 x7 := by
  funext i
  rw [Cert.Spec.lin_zero_bias _ _ _ (zero_row_at hb hc) i, val_main_v25_apply]
  refine Finset.sum_congr rfl fun k _ => ?_
  have el : lidx_main_v25 i k = ix2 (n0 := 100000) (i 0) k := funext fun a => by
    match a with
    | ⟨0, _⟩ => rfl
    | ⟨1, _⟩ => rfl
  have er : ridx_main_v25 i k = ix2 k (n1 := 128) (i 1) := funext fun a => by
    match a with
    | ⟨0, _⟩ => rfl
    | ⟨1, _⟩ => rfl
  rw [el, er]

theorem lin_zero_eq_v58 (x0 : (⟨S100000x32, .f32⟩ : BufTy).Contents (Elt Ideal)) (x1 : (⟨S2x1600000, .i32⟩ : BufTy).Contents (Elt Ideal))
    (x3 : (⟨S32x128, .f32⟩ : BufTy).Contents (Elt Ideal)) (x4 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal))
    (hb : S_.BroadcastsInDim S128 (![] : Fin 0 → Fin S128.rank)) (hc : S128.ShapeCasts S1x128) :
    Cert.Spec.lin (K := 128) (val_main_v57 (F := Ideal) x0 x1 x3 x4 x7 x8) x9
        (shapeCast S1x128 (broadcastInDim S128 ![] hb (constant (F := Ideal) S_ .f32 0x00000000#32)) hc)
      = val_main_v58 (F := Ideal) x0 x1 x3 x4 x7 x8 x9 := by
  funext i
  rw [Cert.Spec.lin_zero_bias _ _ _ (zero_row_at hb hc) i, val_main_v58_apply]
  refine Finset.sum_congr rfl fun k _ => ?_
  have el : lidx_main_v58 i k = ix2 (n0 := 100000) (i 0) k := funext fun a => by
    match a with
    | ⟨0, _⟩ => rfl
    | ⟨1, _⟩ => rfl
  have er : ridx_main_v58 i k = ix2 k (n1 := 128) (i 1) := funext fun a => by
    match a with
    | ⟨0, _⟩ => rfl
    | ⟨1, _⟩ => rfl
  rw [el, er]

/-! ## Bias and positive part -/

/-- The reference's two steps on any aggregated matrix `a`: the broadcast bias added, then the maximum with the zero splat. -/
theorem brelu_at (a : (⟨S100000x128, .f32⟩ : BufTy).Contents (Elt Ideal)) (x : (⟨S128, .f32⟩ : BufTy).Contents (Elt Ideal))
    (hc : S128.ShapeCasts S1x128) (r : Fin 100000) (j : Fin 128) :
    Cert.Spec.brelu a (shapeCast S1x128 x hc) (ix2 r j) = max (a (ix2 r j) + x (ix1 j)) (Ideal.ofBits .f32 0x00000000#32) := by
  rw [Cert.Spec.brelu_apply, row_at, Ideal.ofBits_zero_f32]

theorem brelu_eq_v57 (x0 : (⟨S100000x32, .f32⟩ : BufTy).Contents (Elt Ideal)) (x1 : (⟨S2x1600000, .i32⟩ : BufTy).Contents (Elt Ideal))
    (x3 : (⟨S32x128, .f32⟩ : BufTy).Contents (Elt Ideal)) (x4 : (⟨S128, .f32⟩ : BufTy).Contents (Elt Ideal))
    (x7 : (⟨S128x128, .f32⟩ : BufTy).Contents (Elt Ideal)) (x8 : (⟨S128, .f32⟩ : BufTy).Contents (Elt Ideal))
    (hc : S128.ShapeCasts S1x128) :
    Cert.Spec.brelu (val_main_v53 (F := Ideal) x0 x1 x3 x4 x7) (shapeCast S1x128 x8 hc)
      = val_main_v57 (F := Ideal) x0 x1 x3 x4 x7 x8 := by
  funext i
  obtain ⟨r, j, rfl⟩ : ∃ (r : Fin 100000) (j : Fin 128), i = ix2 r j := ⟨i 0, i 1, eq_ix2 i⟩
  rw [brelu_at, val_main_v57_apply, val_main_v56_apply, val_main_v55_apply, val_main_v54_apply, val_main_call1_v0_apply,
    val_main_call1_cst_apply]
  refine congrArg₂ max (congrArg (_ + ·) (congrArg x8 (funext fun a => by
    match a with
    | ⟨0, _⟩ => rfl))) rfl

theorem brelu_eq_v90 (x0 : (⟨S100000x32, .f32⟩ : BufTy).Contents (Elt Ideal)) (x1 : (⟨S2x1600000, .i32⟩ : BufTy).Contents (Elt Ideal))
    (x3 : (⟨S32x128, .f32⟩ : BufTy).Contents (Elt Ideal)) (x4 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (hc : S128.ShapeCasts S1x128) :
    Cert.Spec.brelu (val_main_v86 (F := Ideal) x0 x1 x3 x4 x7 x8 x9) (shapeCast S1x128 x10 hc)
      = val_main_v90 (F := Ideal) x0 x1 x3 x4 x7 x8 x9 x10 := by
  funext i
  obtain ⟨r, j, rfl⟩ : ∃ (r : Fin 100000) (j : Fin 128), i = ix2 r j := ⟨i 0, i 1, eq_ix2 i⟩
  rw [brelu_at, val_main_v90_apply, val_main_v89_apply, val_main_v88_apply, val_main_v87_apply, val_main_call2_v0_apply,
    val_main_call2_cst_apply]
  refine congrArg₂ max (congrArg (_ + ·) (congrArg x10 (funext fun a => by
    match a with
    | ⟨0, _⟩ => rfl))) rfl

end Cert.Bridge

end
-- ==== Proof.KernelValue.lean ====
/-
  What the kernel program returns, at the extended reals: the reference's own last stage of the argument arrays.
  The run's result array ends at the last boundary's contents (`Gen.W12`), and the boundaries are walked from the launch:
  each pallas_call leaves `Spec.lin` or `Spec.brelu` of the arrays it found (the five region modules), the arrays it
  found are the launch arguments, reshaped bias rows, or what the stretch before left (`Fold`), and `Spec.lin` / `Spec.brelu`
  of those are the reference's stages (`Bridge`): first layer `x · Wn + bn`; projection `h · W1` (the call's zero bias row
  adds nothing); aggregation over the edges with the self loops, scaled by the degree normalisation; bias and positive part;
  then the same three steps with `W2`, `b2`.
-/
import proofs.«132889_j1984274891289_1_alg».proof.Proof.Fold
import proofs.«132889_j1984274891289_1_alg».proof.Proof.Region0
import proofs.«132889_j1984274891289_1_alg».proof.Proof.Region1
import proofs.«132889_j1984274891289_1_alg».proof.Proof.Region2
import proofs.«132889_j1984274891289_1_alg».proof.Proof.Region3
import proofs.«132889_j1984274891289_1_alg».proof.Proof.Region4
import proofs.«132889_j1984274891289_1_alg».proof.Proof.Bridge

set_option maxRecDepth 16384

noncomputable section

namespace Cert.KernelIdeal.Result

open Cert.KernelIdeal Cert.KernelIdeal.Gen Cert.ReferenceIdeal.ReadP
open Idealize.ShloMosaic Idealize.ShloMosaic.TcCoe Idealize.SL.Sem

variable (m : (ℓ : Loc nD τ sig) → Buf (Elt Ideal) ℓ) (ρ : Dev nD → PrngReg) (c : Dev nD)

/-- After the first call: the reference's first layer. -/
theorem v18 : W4 m ρ c (Proc.devRef .tc main_v18)
    = val_main_v20 (F := Ideal) (m ((c : Thread nD τ).loc main_arg0)) (m ((c : Thread nD τ).loc main_arg3)) (m ((c : Thread nD τ).loc main_arg4)) := by
  refine (W4_arr m ρ c 3).trans ?_
  rw [Region0.final (V3 m ρ) c]
  show Cert.Spec.lin (W3 m ρ c (Proc.devRef .tc main_arg0)) (W3 m ρ c (Proc.devRef .tc main_arg3)) (W3 m ρ c (Proc.devRef .tc main_v17)) = _
  rw [Fold.W3_arg0, Fold.W3_arg3, Fold.W3_v17]
  exact Cert.Bridge.lin_eq_v20 _ _ _ _

/-- After the second call: the reference's first projection. -/
theorem v21 : W6 m ρ c (Proc.devRef .tc main_v21)
    = val_main_v25 (F := Ideal) (m ((c : Thread nD τ).loc main_arg0)) (m ((c : Thread nD τ).loc main_arg3)) (m ((c : Thread nD τ).loc main_arg4))
        (m ((c : Thread nD τ).loc main_arg7)) := by
  refine (W6_arr m ρ c 3).trans ?_
  rw [Region1.final (V5 m ρ) c]
  show Cert.Spec.lin (W5 m ρ c (Proc.devRef .tc main_v18)) (W5 m ρ c (Proc.devRef .tc main_arg7)) (W5 m ρ c (Proc.devRef .tc main_v20)) = _
  rw [Fold.W5_v18, Fold.W5_arg7, Fold.W5_v20, v18]
  exact Cert.Bridge.lin_zero_eq_v25 _ _ _ _ _ _

/-- After the third call: the reference's first layer output (aggregated, biased, positive part). -/
theorem v51 : W8 m ρ c (Proc.devRef .tc main_v51)
    = val_main_v57 (F := Ideal) (m ((c : Thread nD τ).loc main_arg0)) (m ((c : Thread nD τ).loc main_arg1)) (m ((c : Thread nD τ).loc main_arg3))
        (m ((c : Thread nD τ).loc main_arg4)) (m ((c : Thread nD τ).loc main_arg7)) (m ((c : Thread nD τ).loc main_arg8)) := by
  refine (W8_arr m ρ c 2).trans ?_
  rw [Region2.final (V7 m ρ) c]
  show Cert.Spec.brelu (W7 m ρ c (Proc.devRef .tc main_v49)) (W7 m ρ c (Proc.devRef .tc main_v50)) = _
  rw [Fold.W7_v49 m ρ c (v21 m ρ c), Fold.W7_v50]
  exact Cert.Bridge.brelu_eq_v57 _ _ _ _ _ _ _

/-- After the fourth call: the reference's second projection. -/
theorem v54 : W10 m ρ c (Proc.devRef .tc main_v54)
    = val_main_v58 (F := Ideal) (m ((c : Thread nD τ).loc main_arg0)) (m ((c : Thread nD τ).loc main_arg1)) (m ((c : Thread nD τ).loc main_arg3))
        (m ((c : Thread nD τ).loc main_arg4)) (m ((c : Thread nD τ).loc main_arg7)) (m ((c : Thread nD τ).loc main_arg8))
        (m ((c : Thread nD τ).loc main_arg9)) := by
  refine (W10_arr m ρ c 3).trans ?_
  rw [Region3.final (V9 m ρ) c]
  show Cert.Spec.lin (W9 m ρ c (Proc.devRef .tc main_v51)) (W9 m ρ c (Proc.devRef .tc main_arg9)) (W9 m ρ c (Proc.devRef .tc main_v53)) = _
  rw [Fold.W9_v51, Fold.W9_arg9, Fold.W9_v53, v51]
  exact Cert.Bridge.lin_zero_eq_v58 _ _ _ _ _ _ _ _ _

/-- After the fifth call: the reference's result. -/
theorem v84 : W12 m ρ c (Proc.devRef .tc main_v84)
    = val_main_v90 (F := Ideal) (m ((c : Thread nD τ).loc main_arg0)) (m ((c : Thread nD τ).loc main_arg1)) (m ((c : Thread nD τ).loc main_arg3))
        (m ((c : Thread nD τ).loc main_arg4)) (m ((c : Thread nD τ).loc main_arg7)) (m ((c : Thread nD τ).loc main_arg8))
        (m ((c : Thread nD τ).loc main_arg9)) (m ((c : Thread nD τ).loc main_arg10)) := by
  refine (W12_arr m ρ c 2).trans ?_
  rw [Region4.final (V11 m ρ) c]
  show Cert.Spec.brelu (W11 m ρ c (Proc.devRef .tc main_v82)) (W11 m ρ c (Proc.devRef .tc main_v83)) = _
  rw [Fold.W11_v82 m ρ c (v54 m ρ c), Fold.W11_v83]
  exact Cert.Bridge.brelu_eq_v90 _ _ _ _ _ _ _ _ _

end Cert.KernelIdeal.Result

end
-- ==== Proof.lean ====
/-
  A two-layer graph convolution, `relu (Â · (relu (Â · ((x · Wn + bn) · W1) + b1)) · W2 + b2)` with `Â` the adjacency with
  self loops scaled by the inverse square roots of the degrees, computed two ways: the reference does everything on the host;
  the kernel program does the three dense products and the two bias-and-positive-part steps in five pallas_calls tiled over
  20 blocks of 5000 rows, and the gathers and scatter-adds of the aggregation on the host, with the reference's own operations.

  At the extended reals the two compute the same function of the arguments, index by index, and no finiteness is needed:
  a matrix unit's product into a zero accumulator is the host's `dot_general` (both are the sum over the inner axis), the
  narrowing to bf16 is the identity, the zero bias row the kernel adds to its projections adds nothing (`s + 0 = s` for every
  extended real), a bias carried as a 1 × 128 row reads as the broadcast bias, and the aggregation stretches are the same
  operations on both sides. Modules: `Spec` (the two dense shapes), `Region0` … `Region4` (what each call leaves in its
  output array), `Fold` (the buffers between the calls), `Bridge` (the dense shapes against the reference's stages),
  `KernelValue` (the kernel's result is the reference's last stage), `KernelRun` (the run with the result array named).

  The three frames: the two kernel programs' are the generated frame certificates; the reference's is its run with the result
  dropped. The idealization rewrote nothing, so `preserves` is trivial.
-/
import proofs.«132889_j1984274891289_1_alg».proof.Defs
import proofs.«132889_j1984274891289_1_alg».proof.Proof.Gen.Kernel
import proofs.«132889_j1984274891289_1_alg».proof.Proof.Gen.Kernel.Frame
import proofs.«132889_j1984274891289_1_alg».proof.Proof.Gen.KernelIdeal
import proofs.«132889_j1984274891289_1_alg».proof.Proof.Gen.KernelIdeal.Frame
import proofs.«132889_j1984274891289_1_alg».proof.Proof.Gen.ReferenceIdeal
import proofs.«132889_j1984274891289_1_alg».proof.Proof.Gen.Pre_finite_inputs
import proofs.«132889_j1984274891289_1_alg».proof.Proof.KernelRun
import proofs.«132889_j1984274891289_1_alg».proof.Proof.KernelValue
import proofs.«132889_j1984274891289_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's last stage of the (agreeing) argument arrays in their result array. -/
theorem algebraic : Cert.algebraic_KernelIdeal_ReferenceIdeal := by
  intro m ρ m' ρ' _ hagree
  refine ⟨fun c => Cert.ReferenceIdeal.ReadP.val_main_v90 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Result.v84 m ρ c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.ReadP.val_main_v90_eq, h0, h1, h3, h4, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
